-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x512 : Shape := ⟨2, ![400000, 512]⟩
abbrev S25000x512 : Shape := ⟨2, ![25000, 512]⟩
abbrev S400000 : Shape := ⟨1, ![400000]⟩
abbrev S1024x512 : Shape := ⟨2, ![1024, 512]⟩
abbrev S512 : Shape := ⟨1, ![512]⟩
abbrev S512x512 : Shape := ⟨2, ![512, 512]⟩
abbrev S_ : Shape := ⟨0, ![]⟩

class Facts : Prop where
  bcast_S_S400000x512 : S_.BroadcastsInDim S400000x512 (![] : Fin 0 → Fin S400000x512.rank)
  reducesTo_S400000x512_S_d0_1 : S400000x512.ReducesTo [0, 1] S_
  h_S_ : 0 < S_.numel
  bcast_S_S25000x512 : S_.BroadcastsInDim S25000x512 (![] : Fin 0 → Fin S25000x512.rank)
  reducesTo_S25000x512_S_d0_1 : S25000x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S512x512 .f32) (main_arg6 : FVec F S512 .f32) (main_arg7 : FVec F S512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_v33

def fn {F : FTy → Type} [FloatOps F] (main_arg0 : FVec F S400000x512 .f32) (main_arg1 : FVec F S25000x512 .f32) (main_arg2 : IVec S400000 32) (main_arg3 : FVec F S1024x512 .f32) (main_arg4 : FVec F S512 .f32) (main_arg5 : FVec F S512x512 .f32) (main_arg6 : FVec F S512 .f32) (main_arg7 : FVec F S512 .f32) (main_arg8 : FVec F S512 .f32) : IVec S_ 1 :=
  let main_v0 : FVec F S400000x512 .f32 := Host.absf main_arg0
  let main_cst : FVec F S_ .f32 := constant S_ .f32 0x7F800000#32
  let main_v1 : FVec F S400000x512 .f32 := broadcastInDim S400000x512 ![] bcast_S_S400000x512 main_cst
  let main_v2 : IVec S400000x512 1 := cmpf .olt main_v0 main_v1
  let main_c : IVec S_ 1 := constantI S_ 1 1#1
  let main_v3 : IVec S_ 1 := (fun x v => Host.reduce IntOp.andi x v reducesTo_S400000x512_S_d0_1 h_S_) main_v2 main_c
  let main_v4 : FVec F S25000x512 .f32 := Host.absf main_arg1
  let main_cst_0 : FVec F S_ .f32 := constant S_ .f32 0x7F800000#32
  let main_v5 : FVec F S25000x512 .f32 := broadcastInDim S25000x512 ![] bcast_S_S25000x512 main_cst_0
  let main_v6 : IVec S25000x512 1 := cmpf .olt main_v4 main_v5
  let main_c_1 : IVec S_ 1 := constantI S_ 1 1#1
  let main_v7 : IVec S_ 1 := (fun x v => Host.reduce IntOp.andi x v reducesTo_S25000x512_S_d0_1 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Kernel.lean ====
abbrev S400000x512 : Shape := ⟨2, ![400000, 512]⟩
abbrev S25000x512 : Shape := ⟨2, ![25000, 512]⟩
abbrev S400000 : Shape := ⟨1, ![400000]⟩
abbrev S1024x512 : Shape := ⟨2, ![1024, 512]⟩
abbrev S512 : Shape := ⟨1, ![512]⟩
abbrev S512x512 : Shape := ⟨2, ![512, 512]⟩
abbrev S_ : Shape := ⟨0, ![]⟩
abbrev S400000x1 : Shape := ⟨2, ![400000, 1]⟩
abbrev S200x512 : Shape := ⟨2, ![200, 512]⟩
abbrev S200x1024 : Shape := ⟨2, ![200, 1024]⟩
abbrev S1x512 : Shape := ⟨2, ![1, 512]⟩
abbrev S200 : Shape := ⟨1, ![200]⟩
abbrev S200x1 : Shape := ⟨2, ![200, 1]⟩

abbrev nBuf : Space → Nat
  | .hbm => 14
  | .vmem => 12
  | .smem => 0
  | _ => 0

abbrev bufTy : (tb : Table) → Fin (tcTables nBuf tb) → BufTy
  | .hbm, ⟨0, _⟩ => ⟨S400000x512, .f32⟩
  | .hbm, ⟨1, _⟩ => ⟨S25000x512, .f32⟩
  | .hbm, ⟨2, _⟩ => ⟨S400000, .i32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S25000x512, .f32⟩
  | .hbm, ⟨11, _⟩ => ⟨S400000x1, .i32⟩
  | .hbm, ⟨12, _⟩ => ⟨S25000x512, .f32⟩
  | .hbm, ⟨13, _⟩ => ⟨S25000x512, .f32⟩
  | .local _ .vmem, ⟨0, _⟩ => ⟨S200x512, .f32⟩
  | .local _ .vmem, ⟨1, _⟩ => ⟨S200x512, .f32⟩
  | .local _ .vmem, ⟨2, _⟩ => ⟨S200x512, .f32⟩
  | .local _ .vmem, ⟨3, _⟩ => ⟨S200x512, .f32⟩
  | .local _ .vmem, ⟨4, _⟩ => ⟨S1024x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S200x512, .f32⟩
  | .local _ .vmem, ⟨11, _⟩ => ⟨S200x512, .f32⟩
  | _, _ => ⟨S400000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S200x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S25000x512 : S_.BroadcastsInDim S25000x512 (![] : Fin 0 → Fin S25000x512.rank)
  bcast_S400000_S400000x1_0 : S400000.BroadcastsInDim S400000x1 (![0] : Fin 1 → Fin S400000x1.rank)
  inb_S200x512_S200x512_0_0 : ∀ a, (![0, 0] : Fin 2 → Nat) a + S200x512.size a ≤ S200x512.size a
  h_S200x512 : 0 < S200x512.numel
  shapeCasts_S200x512_S200x512 : S200x512.ShapeCasts S200x512
  concatenates_S200x512_S200x512_S200x1024_d1 : Shape.Concatenates [S200x512, S200x512] S200x1024 1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  broadcasts_S1x512_S200x512 : S1x512.Broadcasts S200x512
  inb_S512x512_S512x512_0_0 : ∀ a, (![0, 0] : Fin 2 → Nat) a + S512x512.size a ≤ S512x512.size a
  h_S512x512 : 0 < S512x512.numel
  reduces_S200x512_S200 : S200x512.Reduces [1] S200
  shapeCasts_S200_S200x1 : S200.ShapeCasts S200x1
  broadcasts_S200x1_S200x512 : S200x1.Broadcasts S200x512
  scatter_S25000x512_S400000x1_S400000x512_1_0_0_1_wf : ScatterDims.WF S25000x512 S400000x1 S400000x512 [1] [0] [0] 1
  dot_S200x1024_S1024x512_S200x512_1_0_0_1_n_n_wf : DotDims.WF S200x1024 S1024x512 S200x512 [1] [0] [0] [1] [] []
  dot_S200x512_S512x512_S200x512_1_0_0_1_n_n_wf : DotDims.WF S200x512 S512x512 S200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x512.size a ≤ S25000x512.size a
  hwx0_0 : ∀ i : grid0.Coords, EltTy.bits .f32 = 32 ∨ (Rect.block (s := S25000x512) S200x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x512.size a ≤ S25000x512.size a
  hwx0_1 : ∀ i : grid0.Coords, EltTy.bits .f32 = 32 ∨ (Rect.block (s := S25000x512) S200x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x512.size a ≤ S25000x512.size a
  hwx0_8 : ∀ i : grid0.Coords, EltTy.bits .f32 = 32 ∨ (Rect.block (s := S25000x512) S200x512.size (cc0_transform_8 i) (hinb0_8 i)).WholeWords (EltTy.packing .f32)

variable [Facts₀]

def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def dot_S200x1024_S1024x512_S200x512_1_0_0_1_n_n : DotDims S200x1024 S1024x512 S200x512 where
  lhsContracting := [1]
  rhsContracting := [0]
  lhsNonContracting := [0]
  rhsNonContracting := [1]
  lhsBatch := []
  rhsBatch := []
  wf := dot_S200x1024_S1024x512_S200x512_1_0_0_1_n_n_wf
def dot_S200x512_S512x512_S200x512_1_0_0_1_n_n : DotDims S200x512 S512x512 S200x512 where
  lhsContracting := [1]
  rhsContracting := [0]
  lhsNonContracting := [0]
  rhsNonContracting := [1]
  lhsBatch := []
  rhsBatch := []
  wf := dot_S200x512_S512x512_S200x512_1_0_0_1_n_n_wf

abbrev win0_0 : Pipeline.Window sig grid0 :=
  Pipeline.Window.ofSpec (Memref.whole main_v2) S200x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S200x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S400000x512 : Shape := ⟨2, ![400000, 512]⟩
abbrev S25000x512 : Shape := ⟨2, ![25000, 512]⟩
abbrev S400000 : Shape := ⟨1, ![400000]⟩
abbrev S1024x512 : Shape := ⟨2, ![1024, 512]⟩
abbrev S512 : Shape := ⟨1, ![512]⟩
abbrev S512x512 : Shape := ⟨2, ![512, 512]⟩
abbrev S_ : Shape := ⟨0, ![]⟩
abbrev S400000x1 : Shape := ⟨2, ![400000, 1]⟩
abbrev S25000x1024 : Shape := ⟨2, ![25000, 1024]⟩
abbrev S1x512 : Shape := ⟨2, ![1, 512]⟩
abbrev S25000 : Shape := ⟨1, ![25000]⟩
abbrev S25000x1 : Shape := ⟨2, ![25000, 1]⟩

abbrev nBuf : Space → Nat
  | .hbm => 61
  | .vmem => 0
  | .smem => 0
  | _ => 0

abbrev bufTy : (tb : Table) → Fin (tcTables nBuf tb) → BufTy
  | .hbm, ⟨0, _⟩ => ⟨S400000x512, .f32⟩
  | .hbm, ⟨1, _⟩ => ⟨S25000x512, .f32⟩
  | .hbm, ⟨2, _⟩ => ⟨S400000, .i32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S25000x512, .f32⟩
  | .hbm, ⟨11, _⟩ => ⟨S400000x1, .i32⟩
  | .hbm, ⟨12, _⟩ => ⟨S25000x512, .f32⟩
  | .hbm, ⟨13, _⟩ => ⟨S25000x1024, .f32⟩
  | .hbm, ⟨14, _⟩ => ⟨S25000x512, .f32⟩
  | .hbm, ⟨15, _⟩ => ⟨S1x512, .f32⟩
  | .hbm, ⟨16, _⟩ => ⟨S25000x512, .f32⟩
  | .hbm, ⟨17, _⟩ => ⟨S25000x512, .f32⟩
  | .hbm, ⟨18, _⟩ => ⟨S25000x512, .f32⟩
  | .hbm, ⟨19, _⟩ => ⟨S25000x512, .f32⟩
  | .hbm, ⟨20, _⟩ => ⟨S_, .f32⟩
  | .hbm, ⟨21, _⟩ => ⟨S25000x512, .f32⟩
  | .hbm, ⟨22, _⟩ => ⟨S25000x512, .f32⟩
  | .hbm, ⟨23, _⟩ => ⟨S_, .f32⟩
  | .hbm, ⟨24, _⟩ => ⟨S25000x512, .f32⟩
  | .hbm, ⟨25, _⟩ => ⟨S25000x512, .f32⟩
  | .hbm, ⟨26, _⟩ => ⟨S25000x512, .f32⟩
  | .hbm, ⟨27, _⟩ => ⟨S25000x512, .f32⟩
  | .hbm, ⟨28, _⟩ => ⟨S1x512, .f32⟩
  | .hbm, ⟨29, _⟩ => ⟨S25000x512, .f32⟩
  | .hbm, ⟨30, _⟩ => ⟨S25000x512, .f32⟩
  | .hbm, ⟨31, _⟩ => ⟨S_, .f32⟩
  | .hbm, ⟨32, _⟩ => ⟨S25000, .f32⟩
  | .hbm, ⟨33, _⟩ => ⟨S25000x1, .f32⟩
  | .hbm, ⟨34, _⟩ => ⟨S_, .f32⟩
  | .hbm, ⟨35, _⟩ => ⟨S25000x1, .f32⟩
  | .hbm, ⟨36, _⟩ => ⟨S25000x1, .f32⟩
  | .hbm, ⟨37, _⟩ => ⟨S25000x512, .f32⟩
  | .hbm, ⟨38, _⟩ => ⟨S25000x512, .f32⟩
  | .hbm, ⟨39, _⟩ => ⟨S25000x512, .f32⟩
  | .hbm, ⟨40, _⟩ => ⟨S_, .f32⟩
  | .hbm, ⟨41, _⟩ => ⟨S25000, .f32⟩
  | .hbm, ⟨42, _⟩ => ⟨S25000x1, .f32⟩
  | .hbm, ⟨43, _⟩ => ⟨S_, .f32⟩
  | .hbm, ⟨44, _⟩ => ⟨S25000x1, .f32⟩
  | .hbm, ⟨45, _⟩ => ⟨S25000x1, .f32⟩
  | .hbm, ⟨46, _⟩ => ⟨S25000x512, .f32⟩
  | .hbm, ⟨47, _⟩ => ⟨S25000x512, .f32⟩
  | .hbm, ⟨48, _⟩ => ⟨S_, .f32⟩
  | .hbm, ⟨49, _⟩ => ⟨S25000x1, .f32⟩
  | .hbm, ⟨50, _⟩ => ⟨S25000x1, .f32⟩
  | .hbm, ⟨51, _⟩ => ⟨S25000x1, .f32⟩
  | .hbm, ⟨52, _⟩ => ⟨S25000x512, .f32⟩
  | .hbm, ⟨53, _⟩ => ⟨S25000x512, .f32⟩
  | .hbm, ⟨54, _⟩ => ⟨S1x512, .f32⟩
  | .hbm, ⟨55, _⟩ => ⟨S25000x512, .f32⟩
  | .hbm, ⟨56, _⟩ => ⟨S25000x512, .f32⟩
  | .hbm, ⟨57, _⟩ => ⟨S1x512, .f32⟩
  | .hbm, ⟨58, _⟩ => ⟨S25000x512, .f32⟩
  | .hbm, ⟨59, _⟩ => ⟨S25000x512, .f32⟩
  | .hbm, ⟨60, _⟩ => ⟨S25000x512, .f32⟩
  | _, _ => ⟨S400000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  bcast_S_S25000x512 : S_.BroadcastsInDim S25000x512 (![] : Fin 0 → Fin S25000x512.rank)
  bcast_S400000_S400000x1_0 : S400000.BroadcastsInDim S400000x1 (![0] : Fin 1 → Fin S400000x1.rank)
  concatenates_S25000x512_S25000x512_S25000x1024_d1 : Shape.Concatenates [S25000x512, S25000x512] S25000x1024 1
  bcast_S512_S1x512_1 : S512.BroadcastsInDim S1x512 (![1] : Fin 1 → Fin S1x512.rank)
  bcast_S1x512_S25000x512_0_1 : S1x512.BroadcastsInDim S25000x512 (![0, 1] : Fin 2 → Fin S25000x512.rank)
  reducesTo_S25000x512_S25000_d1 : S25000x512.ReducesTo [1] S25000
  h_S_ : 0 < S_.numel
  bcast_S25000_S25000x1_0 : S25000.BroadcastsInDim S25000x1 (![0] : Fin 1 → Fin S25000x1.rank)
  bcast_S_S25000x1 : S_.BroadcastsInDim S25000x1 (![] : Fin 0 → Fin S25000x1.rank)
  bcast_S25000x1_S25000x512_0_1 : S25000x1.BroadcastsInDim S25000x512 (![0, 1] : Fin 2 → Fin S25000x512.rank)
  scatter_S25000x512_S400000x1_S400000x512_1_0_0_1_wf : ScatterDims.WF S25000x512 S400000x1 S400000x512 [1] [0] [0] 1
  dot_S25000x1024_S1024x512_S25000x512_1_0_0_1_n_n_wf : DotDims.WF S25000x1024 S1024x512 S25000x512 [1] [0] [0] [1] [] []
  dot_S25000x512_S512x512_S25000x512_1_0_0_1_n_n_wf : DotDims.WF S25000x512 S512x512 S25000x512 [1] [0] [0] [1] [] []

variable [Facts₀]

def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def dot_S25000x1024_S1024x512_S25000x512_1_0_0_1_n_n : DotDims S25000x1024 S1024x512 S25000x512 where
  lhsContracting := [1]
  rhsContracting := [0]
  lhsNonContracting := [0]
  rhsNonContracting := [1]
  lhsBatch := []
  rhsBatch := []
  wf := dot_S25000x1024_S1024x512_S25000x512_1_0_0_1_n_n_wf
def dot_S25000x512_S512x512_S25000x512_1_0_0_1_n_n : DotDims S25000x512 S512x512 S25000x512 where
  lhsContracting := [1]
  rhsContracting := [0]
  lhsNonContracting := [0]
  rhsNonContracting := [1]
  lhsBatch := []
  rhsBatch := []
  wf := dot_S25000x512_S512x512_S25000x512_1_0_0_1_n_n_wf

class Facts : Prop extends Facts₀ where

variable [Facts]
-- ==== Proof.NodeUpdate.lean ====
/-
  One message-passing node update, as a function of the argument arrays, index by index, over the extended reals.

  For node `n` let `a` be the row of summed incoming edge features and `x` the node's own feature row (512 entries
  each). The two rows are joined into one row of 1024 entries, sent through a linear layer to 512 hidden entries, through
  `u ↦ u · logistic u`, through a second linear layer, and the resulting row `z` is layer-normalised: with
  `μ = (Σ z) / 512` and `σ² = (Σ (z - μ)²) / 512`, entry `d` becomes `(z d - μ) · rsqrt (σ² + ε) · γ d + β d`; the node's
  own feature is added back. Every sum here is a finite sum of extended reals in the order the index type gives; no
  law beyond reading each operation at an index is used to join the two programs, so no finiteness is needed.
-/
import Idealize.ShloMosaic.PureOps.Ideal
import Idealize.ShloMosaic.Lib.ValueIdx

noncomputable section

open scoped BigOperators

namespace Cert.NodeUpdate

open Idealize.ShloMosaic Idealize.ShloMosaic.ValueIdx

/-- A matrix of extended reals with literal extents. -/
abbrev Mat (r c : Nat) : Type := (⟨2, ![r, c]⟩ : Shape).Idx → EReal
/-- A row vector of extended reals with a literal extent. -/
abbrev Row (c : Nat) : Type := (⟨1, ![c]⟩ : Shape).Idx → EReal

/-- The row width 512 as the float word both programs divide by. -/
def width : EReal := Ideal.ofBits .f32 0x44000000#32
/-- The layer norm's ε as the float word both programs add. -/
def eps : EReal := Ideal.ofBits .f32 0x3727C5AC#32

/-- Row `n` of a matrix as a function of the column. -/
def rowOf {r c : Nat} (A : Mat r c) (n : Fin r) : Fin c → EReal := fun d => A (ix2 n d)

/-- The joined row: the 512 aggregated entries, then the node's own 512. -/
def joined (a x : Fin 512 → EReal) (k : Fin 1024) : EReal :=
  if h : k.val < 512 then a ⟨k.val, h⟩ else x ⟨k.val - 512, by have := k.isLt; omega⟩

/-- The first linear layer at hidden unit `j`. -/
def layerOne (a x : Fin 512 → EReal) (w1 : Mat 1024 512) (b1 : Row 512) (j : Fin 512) : EReal :=
  (∑ k : Fin 1024, joined a x k * w1 (ix2 k j)) + b1 (ix1 j)

/-- The activation `u · logistic u`. -/
def act (u : EReal) : EReal := u * Ideal.logistic u

/-- The second linear layer at output unit `d`. -/
def layerTwo (a x : Fin 512 → EReal) (w1 : Mat 1024 512) (b1 : Row 512) (w2 : Mat 512 512) (b2 : Row 512) (d : Fin 512) : EReal :=
  (∑ j : Fin 512, act (layerOne a x w1 b1 j) * w2 (ix2 j d)) + b2 (ix1 d)

/-- The mean of a row of 512. -/
def mean (z : Fin 512 → EReal) : EReal := Ideal.div (∑ e : Fin 512, z e) width
/-- A row less its mean. -/
def centred (z : Fin 512 → EReal) (d : Fin 512) : EReal := z d - mean z
/-- The reciprocal standard deviation `rsqrt (σ² + ε)` of a row. -/
def invStd (z : Fin 512 → EReal) : EReal :=
  Ideal.rsqrt (Ideal.div (∑ e : Fin 512, centred z e * centred z e) width + eps)
/-- A row normalised, before scale and shift. -/
def normed (z : Fin 512 → EReal) (d : Fin 512) : EReal := centred z d * invStd z

/-- One node's new feature at column `d`. -/
def node (a x : Fin 512 → EReal) (w1 : Mat 1024 512) (b1 : Row 512) (w2 : Mat 512 512) (b2 g be : Row 512) (d : Fin 512) : EReal :=
  normed (layerTwo a x w1 b1 w2 b2) d * g (ix1 d) + be (ix1 d) + x d

/-- The new node features as one array: node `n`, column `d`. -/
def out (A X : Mat 25000 512) (w1 : Mat 1024 512) (b1 : Row 512) (w2 : Mat 512 512) (b2 g be : Row 512) : Mat 25000 512 :=
  fun i => node (rowOf A (i 0)) (rowOf X (i 0)) w1 b1 w2 b2 g be (i 1)

/-- The array at explicit coordinates. -/
theorem out_ix2 (A X : Mat 25000 512) (w1 : Mat 1024 512) (b1 : Row 512) (w2 : Mat 512 512) (b2 g be : Row 512)
    (n : Fin 25000) (d : Fin 512) :
    out A X w1 b1 w2 b2 g be (ix2 n d) = node (rowOf A n) (rowOf X n) w1 b1 w2 b2 g be d := rfl

end Cert.NodeUpdate

end
-- ==== Proof.BlockRow.lean ====
/-
  What the kernel body computes for one block of 200 nodes, read at row `p` and column `q` of the block.

  The body joins the block of aggregated features with the block of node features along the columns, multiplies by the
  first weight matrix (a sum over the 1024 joined columns), adds the bias row, applies `u · logistic u`, multiplies by the
  second weight matrix (a sum over 512 hidden units), adds the second bias row, and normalises each row by its mean and
  variance. Each operation is read at an index: a concatenation reads its left or right piece, a matrix product into a
  zero accumulator is the plain sum over the contracted axis, a lane reduction is the sum over the row, a keep-dims column
  read back along a row is the row's one value, and the change of float format is the identity on extended reals. Row `p`
  of the result therefore depends on row `p` of the two input blocks only, and is the node update of those two rows.
-/
import proofs.«138643_j42777874268720_1_alg».proof.Proof.Gen.KernelIdeal.Skeleton
import proofs.«138643_j42777874268720_1_alg».proof.Proof.NodeUpdate
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockRow

open Cert.KernelIdeal Cert.KernelIdeal.Gen Idealize.ShloMosaic Idealize.ShloMosaic.ValueIdx Cert.NodeUpdate

/-! ## The layout operations of the body at `(p, q)` -/

/-- The joined block at row `p`, joined column `k`: the left block for `k < 512`, else the right block at `k - 512`. -/
theorem joined_apply (X0 X1 : FVec Ideal S200x512 .f32) (p : Fin 200) (k : Fin 1024) :
    concatenate S200x1024 1 [⟨S200x512, X0⟩, ⟨S200x512, X1⟩] concatenates_S200x512_S200x512_S200x1024_d1 (ix2 p k)
      = joined (fun d => X0 (ix2 p d)) (fun d => X1 (ix2 p d)) k := by
  unfold joined
  by_cases h : k.val < 512
  · rw [dif_pos h]
    exact concatenate_pair_apply_left (1 : Fin 2) X0 X1 _ (ix2 p k) rfl (ix2 p ⟨k.val, h⟩)
      (fun b => match b with | ⟨0, _⟩ => rfl | ⟨1, _⟩ => rfl)
  · rw [dif_neg h]
    have hk : k.val - 512 < 512 := by have := k.isLt; omega
    exact concatenate_pair_apply_right (1 : Fin 2) X0 X1 _ (ix2 p k) rfl rfl (ix2 p ⟨k.val - 512, hk⟩)
      (fun b hb => match b, hb with | ⟨0, _⟩, _ => rfl | ⟨1, _⟩, hb => absurd rfl hb)
      (by show (k.val - 512) + 512 = k.val; omega)

/-- A bias row, cast to one row and broadcast down the block, reads the bias at the column. -/
theorem biasRow_apply (b : FVec Ideal S512 .f32) (p : Fin 200) (q : Fin 512) :
    broadcastTo S200x512 (shapeCast S1x512 b shapeCasts_S512_S1x512) broadcasts_S1x512_S200x512 (ix2 p q) = b (ix1 q) :=
  (broadcastTo_1b_ab_apply _ broadcasts_S1x512_S200x512 p q).trans (shapeCast_a_1a_apply b shapeCasts_S512_S1x512 0 q)

/-- A per-row value kept as a column and broadcast along the row reads the row's value. -/
theorem column_apply (s : FVec Ideal S200x1 .f32) (p : Fin 200) (q : Fin 512) :
    broadcastTo S200x512 s broadcasts_S200x1_S200x512 (ix2 p q) = s (ix2 p (0 : Fin 1)) :=
  broadcastTo_apply s broadcasts_S200x1_S200x512 (ix2 p q) (ix2 p (0 : Fin 1)) fun a =>
    match a with
    | ⟨0, _⟩ => by show p.val = (if (200 : Nat) = 1 then 0 else p.val); rw [if_neg (by decide)]
    | ⟨1, _⟩ => by show 0 = (if (1 : Nat) = 1 then 0 else q.val); rw [if_pos rfl]

/-- A vector of per-row values cast to a column reads the row's value. -/
theorem toColumn_apply (s : FVec Ideal S200 .f32) (p : Fin 200) :
    shapeCast S200x1 s shapeCasts_S200_S200x1 (ix2 p (0 : Fin 1)) = s (ix1 p) :=
  shapeCast_apply s shapeCasts_S200_S200x1 (ix2 p (0 : Fin 1)) (ix1 p) (by
    rw [Shape.rowMajor_val_one, Shape.rowMajor_val_two]
    show p.val = p.val * 1 + 0
    omega)

/-- The lane sum of a block at row `p`: the sum of the row. -/
theorem rowSum_apply (Z : FVec Ideal S200x512 .f32) (hφ : FKind.Formats .f32) (hacc : (0x00000000#32 : BitVec 32) = 0x00000000#32) (p : Fin 200) :
    multiReduction .add [1] S200 Z 0x00000000#32 reduces_S200x512_S200 hφ hacc (ix1 p) = ∑ e : Fin 512, Z (ix2 p e) := by
  refine (Ideal.multiReduction_add_single Z 0x00000000#32 reduces_S200x512_S200 hφ hacc (ix1 p)).trans ?_
  refine Finset.sum_congr rfl fun e _ => congrArg Z (funext fun a => Fin.ext ?_)
  match a with
  | ⟨0, _⟩ => rfl
  | ⟨1, _⟩ => rfl

/-! ## The two matrix products at `(p, j)`

The operand indices of a product with one contracted axis, axis by axis, and then the product into the zero
accumulator as the sum over the contracted coordinate. -/

theorem first_lhs_0 (i : S200x512.Idx) (q : dot_S200x1024_S1024x512_S200x512_1_0_0_1_n_n.contr.Idx) :
    (dot_S200x1024_S1024x512_S200x512_1_0_0_1_n_n.lhsIdx i q 0).val = (i 0).val := by
  unfold DotDims.lhsIdx
  rw [dif_neg (show ¬(0 : Fin S200x1024.rank) ∈ dot_S200x1024_S1024x512_S200x512_1_0_0_1_n_n.lhsBatch by decide), dif_pos (show (0 : Fin S200x1024.rank) ∈ dot_S200x1024_S1024x512_S200x512_1_0_0_1_n_n.lhsNonContracting by decide)]
  rfl
theorem first_lhs_1 (i : S200x512.Idx) (q : dot_S200x1024_S1024x512_S200x512_1_0_0_1_n_n.contr.Idx) :
    (dot_S200x1024_S1024x512_S200x512_1_0_0_1_n_n.lhsIdx i q 1).val = (q ⟨0, by decide⟩).val :=
  dot_S200x1024_S1024x512_S200x512_1_0_0_1_n_n.lhsIdx_val_of_single rfl i q
theorem first_rhs_0 (i : S200x512.Idx) (q : dot_S200x1024_S1024x512_S200x512_1_0_0_1_n_n.contr.Idx) :
    (dot_S200x1024_S1024x512_S200x512_1_0_0_1_n_n.rhsIdx i q 0).val = (q ⟨0, by decide⟩).val :=
  dot_S200x1024_S1024x512_S200x512_1_0_0_1_n_n.rhsIdx_val_of_single rfl i q
theorem first_rhs_1 (i : S200x512.Idx) (q : dot_S200x1024_S1024x512_S200x512_1_0_0_1_n_n.contr.Idx) :
    (dot_S200x1024_S1024x512_S200x512_1_0_0_1_n_n.rhsIdx i q 1).val = (i 1).val := by
  unfold DotDims.rhsIdx
  rw [dif_neg (show ¬(1 : Fin S1024x512.rank) ∈ dot_S200x1024_S1024x512_S200x512_1_0_0_1_n_n.rhsBatch by decide), dif_pos (show (1 : Fin S1024x512.rank) ∈ dot_S200x1024_S1024x512_S200x512_1_0_0_1_n_n.rhsNonContracting by decide)]
  rfl

/-- The first product: row `p` of the joined block against column `j` of the first weight matrix. -/
theorem first_apply (X : FVec Ideal S200x1024 .bf16) (W : FVec Ideal S1024x512 .bf16) (p : Fin 200) (j : Fin 512) :
    matmul dot_S200x1024_S1024x512_S200x512_1_0_0_1_n_n none X W (constant S200x512 .f32 0x00000000#32) (ix2 p j)
      = ∑ k : Fin 1024, X (ix2 p k) * W (ix2 k j) := by
  simp only [matmul]
  rw [Ideal.matmul_constant_zero_apply, ← Equiv.sum_comp (contrEquiv1 dot_S200x1024_S1024x512_S200x512_1_0_0_1_n_n 1024 rfl rfl).symm]
  refine Finset.sum_congr rfl fun k _ => ?_
  have hk := contrEquiv1_symm_val dot_S200x1024_S1024x512_S200x512_1_0_0_1_n_n 1024 rfl rfl k
  have el : dot_S200x1024_S1024x512_S200x512_1_0_0_1_n_n.lhsIdx (ix2 p j) ((contrEquiv1 dot_S200x1024_S1024x512_S200x512_1_0_0_1_n_n 1024 rfl rfl).symm k) = ix2 p k := funext fun a => Fin.ext (by
    match a with
    | ⟨0, _⟩ => exact first_lhs_0 _ _
    | ⟨1, _⟩ => exact (first_lhs_1 _ _).trans hk)
  have er : dot_S200x1024_S1024x512_S200x512_1_0_0_1_n_n.rhsIdx (ix2 p j) ((contrEquiv1 dot_S200x1024_S1024x512_S200x512_1_0_0_1_n_n 1024 rfl rfl).symm k) = ix2 k j := funext fun a => Fin.ext (by
    match a with
    | ⟨0, _⟩ => exact (first_rhs_0 _ _).trans hk
    | ⟨1, _⟩ => exact first_rhs_1 _ _)
  rw [el, er]

theorem second_lhs_0 (i : S200x512.Idx) (q : dot_S200x512_S512x512_S200x512_1_0_0_1_n_n.contr.Idx) :
    (dot_S200x512_S512x512_S200x512_1_0_0_1_n_n.lhsIdx i q 0).val = (i 0).val := by
  unfold DotDims.lhsIdx
  rw [dif_neg (show ¬(0 : Fin S200x512.rank) ∈ dot_S200x512_S512x512_S200x512_1_0_0_1_n_n.lhsBatch by decide), dif_pos (show (0 : Fin S200x512.rank) ∈ dot_S200x512_S512x512_S200x512_1_0_0_1_n_n.lhsNonContracting by decide)]
  rfl
theorem second_lhs_1 (i : S200x512.Idx) (q : dot_S200x512_S512x512_S200x512_1_0_0_1_n_n.contr.Idx) :
    (dot_S200x512_S512x512_S200x512_1_0_0_1_n_n.lhsIdx i q 1).val = (q ⟨0, by decide⟩).val :=
  dot_S200x512_S512x512_S200x512_1_0_0_1_n_n.lhsIdx_val_of_single rfl i q
theorem second_rhs_0 (i : S200x512.Idx) (q : dot_S200x512_S512x512_S200x512_1_0_0_1_n_n.contr.Idx) :
    (dot_S200x512_S512x512_S200x512_1_0_0_1_n_n.rhsIdx i q 0).val = (q ⟨0, by decide⟩).val :=
  dot_S200x512_S512x512_S200x512_1_0_0_1_n_n.rhsIdx_val_of_single rfl i q
theorem second_rhs_1 (i : S200x512.Idx) (q : dot_S200x512_S512x512_S200x512_1_0_0_1_n_n.contr.Idx) :
    (dot_S200x512_S512x512_S200x512_1_0_0_1_n_n.rhsIdx i q 1).val = (i 1).val := by
  unfold DotDims.rhsIdx
  rw [dif_neg (show ¬(1 : Fin S512x512.rank) ∈ dot_S200x512_S512x512_S200x512_1_0_0_1_n_n.rhsBatch by decide), dif_pos (show (1 : Fin S512x512.rank) ∈ dot_S200x512_S512x512_S200x512_1_0_0_1_n_n.rhsNonContracting by decide)]
  rfl

/-- The second product: row `p` of the activations against column `j` of the second weight matrix. -/
theorem second_apply (X : FVec Ideal S200x512 .bf16) (W : FVec Ideal S512x512 .bf16) (p : Fin 200) (j : Fin 512) :
    matmul dot_S200x512_S512x512_S200x512_1_0_0_1_n_n none X W (constant S200x512 .f32 0x00000000#32) (ix2 p j)
      = ∑ k : Fin 512, X (ix2 p k) * W (ix2 k j) := by
  simp only [matmul]
  rw [Ideal.matmul_constant_zero_apply, ← Equiv.sum_comp (contrEquiv1 dot_S200x512_S512x512_S200x512_1_0_0_1_n_n 512 rfl rfl).symm]
  refine Finset.sum_congr rfl fun k _ => ?_
  have hk := contrEquiv1_symm_val dot_S200x512_S512x512_S200x512_1_0_0_1_n_n 512 rfl rfl k
  have el : dot_S200x512_S512x512_S200x512_1_0_0_1_n_n.lhsIdx (ix2 p j) ((contrEquiv1 dot_S200x512_S512x512_S200x512_1_0_0_1_n_n 512 rfl rfl).symm k) = ix2 p k := funext fun a => Fin.ext (by
    match a with
    | ⟨0, _⟩ => exact second_lhs_0 _ _
    | ⟨1, _⟩ => exact (second_lhs_1 _ _).trans hk)
  have er : dot_S200x512_S512x512_S200x512_1_0_0_1_n_n.rhsIdx (ix2 p j) ((contrEquiv1 dot_S200x512_S512x512_S200x512_1_0_0_1_n_n 512 rfl rfl).symm k) = ix2 k j := funext fun a => Fin.ext (by
    match a with
    | ⟨0, _⟩ => exact (second_rhs_0 _ _).trans hk
    | ⟨1, _⟩ => exact second_rhs_1 _ _)
  rw [el, er]

/-! ## The body's stages, and the normalised block at `(p, q)` -/

section Stages

variable (P0 P1 : FVec Ideal S200x512 .f32) (P2 : FVec Ideal S1024x512 .f32) (P3 : FVec Ideal S512 .f32)
  (P4 : FVec Ideal S512x512 .f32) (P5 : FVec Ideal S512 .f32)

/-- The first layer of the block, before the activation. -/
def layer1 : FVec Ideal S200x512 .f32 :=
  addf (matmul dot_S200x1024_S1024x512_S200x512_1_0_0_1_n_n none
      (truncf .bf16 (concatenate S200x1024 1 [⟨S200x512, shapeCast S200x512 P0 shapeCasts_S200x512_S200x512⟩, ⟨S200x512, P1⟩] concatenates_S200x512_S200x512_S200x1024_d1) bitsLt_bf16_f32)
      (truncf .bf16 P2 bitsLt_bf16_f32) (constant S200x512 .f32 0x00000000#32))
    (broadcastTo S200x512 (shapeCast S1x512 P3 shapeCasts_S512_S1x512) broadcasts_S1x512_S200x512)

/-- The second layer of the block, before the normalisation. -/
def layer2 : FVec Ideal S200x512 .f32 :=
  addf (matmul dot_S200x512_S512x512_S200x512_1_0_0_1_n_n none
      (truncf .bf16 (mulf (layer1 P0 P1 P2 P3) (logistic (layer1 P0 P1 P2 P3))) bitsLt_bf16_f32)
      (truncf .bf16 P4 bitsLt_bf16_f32) (constant S200x512 .f32 0x00000000#32))
    (broadcastTo S200x512 (shapeCast S1x512 P5 shapeCasts_S512_S1x512) broadcasts_S1x512_S200x512)

/-- Each row of a block less its mean. -/
def centredBlock (Z : FVec Ideal S200x512 .f32) : FVec Ideal S200x512 .f32 :=
  subf Z (broadcastTo S200x512
    (divf (shapeCast S200x1 (multiReduction .add [1] S200 Z 0x00000000#32 reduces_S200x512_S200 (.inl rfl) rfl) shapeCasts_S200_S200x1)
      (broadcast S200x1 (Scalar.ofBits .f32 0x44000000#32)))
    broadcasts_S200x1_S200x512)

/-- Each row of a block normalised by its mean and variance. -/
def normedBlock (Z : FVec Ideal S200x512 .f32) : FVec Ideal S200x512 .f32 :=
  mulf (centredBlock Z) (broadcastTo S200x512
    (rsqrt (addf
      (divf (shapeCast S200x1 (multiReduction .add [1] S200 (mulf (centredBlock Z) (centredBlock Z)) 0x00000000#32 reduces_S200x512_S200 (.inl rfl) rfl) shapeCasts_S200_S200x1)
        (broadcast S200x1 (Scalar.ofBits .f32 0x44000000#32)))
      (broadcast S200x1 (Scalar.ofBits .f32 0x3727C5AC#32))))
    broadcasts_S200x1_S200x512)

/-- The body's normalised value is these stages composed. -/
theorem pay2_eq : k0_pay2 P0 P1 P2 P3 P4 P5 = normedBlock (layer2 P0 P1 P2 P3 P4 P5) := rfl

/-- The first layer at `(p, j)` is the node's first linear layer of row `p` of the two blocks. -/
theorem layer1_apply (p : Fin 200) (j : Fin 512) :
    layer1 P0 P1 P2 P3 (ix2 p j) = layerOne (fun d => P0 (ix2 p d)) (fun d => P1 (ix2 p d)) P2 P3 j := by
  unfold layer1 layerOne
  rw [shapeCast_self]
  show matmul dot_S200x1024_S1024x512_S200x512_1_0_0_1_n_n none _ _ _ (ix2 p j) + broadcastTo S200x512 _ _ (ix2 p j) = _
  rw [first_apply, biasRow_apply]
  refine congrArg (· + P3 (ix1 j)) (Finset.sum_congr rfl fun k _ => ?_)
  show concatenate S200x1024 1 [⟨S200x512, P0⟩, ⟨S200x512, P1⟩] concatenates_S200x512_S200x512_S200x1024_d1 (ix2 p k) * P2 (ix2 k j) = _
  rw [joined_apply]

/-- The second layer at `(p, d)` is the node's second linear layer of row `p`. -/
theorem layer2_apply (p : Fin 200) (d : Fin 512) :
    layer2 P0 P1 P2 P3 P4 P5 (ix2 p d) = layerTwo (fun e => P0 (ix2 p e)) (fun e => P1 (ix2 p e)) P2 P3 P4 P5 d := by
  unfold layer2 layerTwo
  show matmul dot_S200x512_S512x512_S200x512_1_0_0_1_n_n none _ _ _ (ix2 p d) + broadcastTo S200x512 _ _ (ix2 p d) = _
  rw [second_apply, biasRow_apply]
  refine congrArg (· + P5 (ix1 d)) (Finset.sum_congr rfl fun j _ => ?_)
  show (layer1 P0 P1 P2 P3 (ix2 p j) * Ideal.logistic (layer1 P0 P1 P2 P3 (ix2 p j))) * P4 (ix2 j d) = _
  rw [layer1_apply]
  rfl

end Stages

/-- A centred block at `(p, q)`: the entry less its row's mean. -/
theorem centredBlock_apply (Z : FVec Ideal S200x512 .f32) (p : Fin 200) (q : Fin 512) :
    centredBlock Z (ix2 p q) = centred (fun e => Z (ix2 p e)) q := by
  unfold centredBlock centred mean width
  show Z (ix2 p q) - broadcastTo S200x512 _ _ (ix2 p q) = _
  rw [column_apply]
  show Z (ix2 p q) - Ideal.div (shapeCast S200x1 _ _ (ix2 p (0 : Fin 1))) (Ideal.ofBits .f32 0x44000000#32) = _
  rw [toColumn_apply, rowSum_apply]

/-- A normalised block at `(p, q)`: the node's normalised row at `q`. -/
theorem normedBlock_apply (Z : FVec Ideal S200x512 .f32) (p : Fin 200) (q : Fin 512) :
    normedBlock Z (ix2 p q) = normed (fun e => Z (ix2 p e)) q := by
  unfold normedBlock normed invStd width eps
  show centredBlock Z (ix2 p q) * broadcastTo S200x512 _ _ (ix2 p q) = _
  rw [column_apply, centredBlock_apply]
  show _ * Ideal.rsqrt (Ideal.div (shapeCast S200x1 _ _ (ix2 p (0 : Fin 1))) (Ideal.ofBits .f32 0x44000000#32) + Ideal.ofBits .f32 0x3727C5AC#32) = _
  rw [toColumn_apply, rowSum_apply]
  refine congrArg (fun s => centred (fun e => Z (ix2 p e)) q * Ideal.rsqrt (Ideal.div s (Ideal.ofBits .f32 0x44000000#32) + Ideal.ofBits .f32 0x3727C5AC#32)) ?_
  refine Finset.sum_congr rfl fun e _ => ?_
  show centredBlock Z (ix2 p e) * centredBlock Z (ix2 p e) = _
  rw [centredBlock_apply]

/-- THE BODY'S NORMALISED VALUE at row `p`, column `q` of the block: the normalised second layer of the node whose
    aggregated and own features are row `p` of the two input blocks. -/
theorem pay2_apply (P0 P1 : FVec Ideal S200x512 .f32) (P2 : FVec Ideal S1024x512 .f32) (P3 : FVec Ideal S512 .f32)
    (P4 : FVec Ideal S512x512 .f32) (P5 : FVec Ideal S512 .f32) (p : Fin 200) (q : Fin 512) :
    k0_pay2 (F := Ideal) P0 P1 P2 P3 P4 P5 (ix2 p q)
      = normed (layerTwo (fun e => P0 (ix2 p e)) (fun e => P1 (ix2 p e)) P2 P3 P4 P5) q := by
  rw [pay2_eq, normedBlock_apply]
  exact congrArg (fun z => normed z q) (funext fun e => layer2_apply P0 P1 P2 P3 P4 P5 p e)

end Cert.KernelIdeal.BlockRow

end
-- ==== Proof.NodeArray.lean ====
/-
  The kernel's result array after the run, as one function of the argument arrays.

  The grid has 125 points; point `t` works on nodes `200 t … 200 t + 199`. Its block of the aggregated features and its
  block of the node features are rows `200 t + p` of those arrays, the weights, biases, scale and shift are read whole
  at every point, and what the point writes back is rows `200 t + p` of the node update. Node `n` is written by point
  `n / 200`, so the 125 blocks cover the array. The aggregated features are the host's scatter-add of the edge features
  into a zero array, which the region finds already computed; it is carried as one array and never opened.
-/
import proofs.«138643_j42777874268720_1_alg».proof.Proof.Gen.KernelIdeal.Value
import proofs.«138643_j42777874268720_1_alg».proof.Proof.BlockRow
import Idealize.ShloMosaic.Lib.Pipeline.Value
import Idealize.ShloMosaic.Lib.StableHlo.Run

noncomputable section

open scoped BigOperators

namespace Cert.KernelIdeal.NodeArray

open Cert.KernelIdeal Cert.KernelIdeal.Gen Idealize.ShloMosaic Idealize.ShloMosaic.TcCoe Idealize.SL.Sem Idealize.ShloMosaic.ValueIdx
open Idealize.ShloMosaic.Pipeline (Dat)
open Cert.NodeUpdate

/-- The edge features summed into their destination nodes: the host's scatter-add into the zero array. -/
def agg (x0 : FVec Ideal S400000x512 .f32) (x2 : IVec S400000 32) : FVec Ideal S25000x512 .f32 :=
  Host.scatterAdd scatter_S25000x512_S400000x1_S400000x512_1_0_0_1
    (broadcastInDim S25000x512 ![] bcast_S_S25000x512 (constant (F := Ideal) S_ .f32 0x00000000#32))
    (broadcastInDim S400000x1 ![0] bcast_S400000_S400000x1_0 x2) x0

variable (m : (ℓ : Loc nD τ sig) → Buf (Elt Ideal) ℓ) (ρ : Dev nD → PrngReg)

/-- The new node features, of the arguments as launched. -/
def result (c : Dev nD) : FVec Ideal S25000x512 .f32 :=
  out (agg (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The region finds the aggregated features computed by the host operations before it. -/
theorem V_agg (c : Dev nD) :
    (V m c main_v2 : S25000x512.Idx → EReal) = agg (m ((c : Thread nD τ).loc main_arg0)) (m ((c : Thread nD τ).loc main_arg2)) := by
  dsimp only [Gen.V, Gen.hostOps0]
  after_results
  rfl

/-- The index maps over the grid: the three row-blocked windows are at block row `t`, everything else at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0
    ∧ win0_8.index t (0 : Fin 2) = t.val ∧ win0_8.index t (1 : Fin 2) = 0 :=
  (by decide +kernel : ∀ t : Fin grid0.N, _)

/-- One block of the node update, over variables: if the two row-blocked inputs are rows `r0 + p` of two arrays, the
    body leaves rows `r0 + p` of the node update of those arrays. -/
theorem block_eq (X0 X1 : Vec Ideal S200x512 .f32) (X2 : Vec Ideal S1024x512 .f32) (X3 : Vec Ideal S512 .f32)
    (X4 : Vec Ideal S512x512 .f32) (X5 X6 X7 : Vec Ideal S512 .f32) (A X : Mat 25000 512) (r0 : Nat)
    (hr : ∀ p : Fin 200, r0 + p.val < 25000)
    (h0 : ∀ (p : Fin 200) (d : Fin 512), X0 (ix2 p d) = A (ix2 ⟨r0 + p.val, hr p⟩ d))
    (h1 : ∀ (p : Fin 200) (d : Fin 512), X1 (ix2 p d) = X (ix2 ⟨r0 + p.val, hr p⟩ d))
    (p : Fin 200) (q : Fin 512) :
    out0_8 X0 X1 X2 X3 X4 X5 X6 X7 (ix2 p q) = out A X X2 X3 X4 X5 X6 X7 (ix2 ⟨r0 + p.val, hr p⟩ q) := by
  have hz : (![0, 0] : Fin 2 → Nat) = fun _ => 0 := funext fun a => by fin_cases a <;> rfl
  have hz1 : (![0] : Fin 1 → Nat) = fun _ => 0 := funext fun a => by fin_cases a; rfl
  unfold out0_8
  rw [Value.canon8_eq]
  simp only [View.ld_unit_zero (S := S200x512) hz, View.ld_unit_zero (S := S1024x512) hz, View.ld_unit_zero (S := S512x512) hz,
    View.ld_unit_zero (S := S512) hz1]
  rw [out_ix2]
  unfold node
  have e0 : Value.ix8_0 (ix2 p q) = ix2 p q := funext fun a => Fin.ext (by match a with | ⟨0, _⟩ => rfl | ⟨1, _⟩ => rfl)
  have e1 : Value.ix8_1 (ix2 p q) = ix1 q := funext fun a => Fin.ext (by match a with | ⟨0, _⟩ => rfl)
  have e2 : Value.ix8_2 (ix2 p q) = ix1 q := funext fun a => Fin.ext (by match a with | ⟨0, _⟩ => rfl)
  have e3 : Value.ix8_3 (ix2 p q) = ix2 p q := funext fun a => Fin.ext (by match a with | ⟨0, _⟩ => rfl | ⟨1, _⟩ => rfl)
  show (k0_pay2 (F := Ideal) X0 X1 X2 X3 X4 X5 (Value.ix8_0 (ix2 p q)) * X6 (Value.ix8_1 (ix2 p q)) + X7 (Value.ix8_2 (ix2 p q))) + X1 (Value.ix8_3 (ix2 p q)) = _
  rw [e0, e1, e2, e3, BlockRow.pay2_apply, h1 p q]
  have ra : (fun e => X0 (ix2 p e)) = rowOf A ⟨r0 + p.val, hr p⟩ := funext fun e => h0 p e
  have rx : (fun e => X1 (ix2 p e)) = rowOf X ⟨r0 + p.val, hr p⟩ := funext fun e => h1 p e
  rw [ra, rx]
  rfl

/-! ## The blocks a point reads -/

/-- Point `t`'s block of the aggregated features is rows `200 t + p` of the array the region finds. -/
theorem read_agg (c : Dev nD) (t : Fin cfg0.N) (ht : ∀ p : Fin 200, 200 * t.val + p.val < 25000) (p : Fin 200) (d : Fin 512) :
    iblk m c 0 t (ix2 p d) = agg (m ((c : Thread nD τ).loc main_arg0)) (m ((c : Thread nD τ).loc main_arg2)) (ix2 ⟨200 * t.val + p.val, ht p⟩ d) := by
  obtain ⟨e00, e01, -⟩ := idx_facts t
  rw [← V_agg m c]
  show V m c main_v2 (((cfg0.win 0).blk t).view.emb (ix2 p d)) = V m c main_v2 _
  refine congrArg (V m c main_v2) (funext fun a => Fin.ext ?_)
  match a with
  | ⟨0, _⟩ => show win0_0.index t (0 : Fin 2) * 200 + 1 * p.val = 200 * t.val + p.val; omega
  | ⟨1, _⟩ => show win0_0.index t (1 : Fin 2) * 512 + 1 * d.val = d.val; omega

/-- Point `t`'s block of the node features is rows `200 t + p` of the argument. -/
theorem read_nodes (c : Dev nD) (t : Fin cfg0.N) (ht : ∀ p : Fin 200, 200 * t.val + p.val < 25000) (p : Fin 200) (d : Fin 512) :
    iblk m c 1 t (ix2 p d) = ((m ((c : Thread nD τ).loc main_arg1)) : S25000x512.Idx → EReal) (ix2 ⟨200 * t.val + p.val, ht p⟩ d) := by
  obtain ⟨-, -, e10, e11, -⟩ := idx_facts t
  rw [← V_main_arg1 m c]
  show V m c main_arg1 (((cfg0.win 1).blk t).view.emb (ix2 p d)) = V m c main_arg1 _
  refine congrArg (V m c main_arg1) (funext fun a => Fin.ext ?_)
  match a with
  | ⟨0, _⟩ => show win0_1.index t (0 : Fin 2) * 200 + 1 * p.val = 200 * t.val + p.val; omega
  | ⟨1, _⟩ => show win0_1.index t (1 : Fin 2) * 512 + 1 * d.val = d.val; omega

/-- The first weight matrix is read whole at every point. -/
theorem read_w1 (c : Dev nD) (t : Fin cfg0.N) : (iblk m c 2 t : S1024x512.Idx → EReal) = (m ((c : Thread nD τ).loc main_arg3)) := by
  obtain ⟨-, -, -, -, e20, e21, -⟩ := idx_facts t
  rw [← V_main_arg3 m c]
  funext y
  show V m c main_arg3 (((cfg0.win 2).blk t).view.emb y) = V m c main_arg3 y
  refine congrArg (V m c main_arg3) (funext fun a => Fin.ext ?_)
  match a with
  | ⟨0, _⟩ => show win0_2.index t (0 : Fin 2) * 1024 + 1 * (y 0).val = (y 0).val; omega
  | ⟨1, _⟩ => show win0_2.index t (1 : Fin 2) * 512 + 1 * (y 1).val = (y 1).val; omega

/-- The second weight matrix is read whole at every point. -/
theorem read_w2 (c : Dev nD) (t : Fin cfg0.N) : (iblk m c 4 t : S512x512.Idx → EReal) = (m ((c : Thread nD τ).loc main_arg5)) := by
  obtain ⟨-, -, -, -, -, -, -, e40, e41, -⟩ := idx_facts t
  rw [← V_main_arg5 m c]
  funext y
  show V m c main_arg5 (((cfg0.win 4).blk t).view.emb y) = V m c main_arg5 y
  refine congrArg (V m c main_arg5) (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

/-- The first bias is read whole at every point. -/
theorem read_b1 (c : Dev nD) (t : Fin cfg0.N) : (iblk m c 3 t : S512.Idx → EReal) = (m ((c : Thread nD τ).loc main_arg4)) := by
  obtain ⟨-, -, -, -, -, -, e3, -⟩ := idx_facts t
  rw [← V_main_arg4 m c]
  funext y
  show V m c main_arg4 (((cfg0.win 3).blk t).view.emb y) = V m c main_arg4 y
  refine congrArg (V m c main_arg4) (funext fun a => Fin.ext ?_)
  match a with
  | ⟨0, _⟩ => show win0_3.index t (0 : Fin 1) * 512 + 1 * (y 0).val = (y 0).val; omega

/-- The second bias is read whole at every point. -/
theorem read_b2 (c : Dev nD) (t : Fin cfg0.N) : (iblk m c 5 t : S512.Idx → EReal) = (m ((c : Thread nD τ).loc main_arg6)) := by
  obtain ⟨-, -, -, -, -, -, -, -, -, e5, -⟩ := idx_facts t
  rw [← V_main_arg6 m c]
  funext y
  show V m c main_arg6 (((cfg0.win 5).blk t).view.emb y) = V m c main_arg6 y
  refine congrArg (V m c main_arg6) (funext fun a => Fin.ext ?_)
  match a with
  | ⟨0, _⟩ => show win0_5.index t (0 : Fin 1) * 512 + 1 * (y 0).val = (y 0).val; omega

/-- The scale is read whole at every point. -/
theorem read_gamma (c : Dev nD) (t : Fin cfg0.N) : (iblk m c 6 t : S512.Idx → EReal) = (m ((c : Thread nD τ).loc main_arg7)) := by
  obtain ⟨-, -, -, -, -, -, -, -, -, -, e6, -⟩ := idx_facts t
  rw [← V_main_arg7 m c]
  funext y
  show V m c main_arg7 (((cfg0.win 6).blk t).view.emb y) = V m c main_arg7 y
  refine congrArg (V m c main_arg7) (funext fun a => Fin.ext ?_)
  match a with
  | ⟨0, _⟩ => show win0_6.index t (0 : Fin 1) * 512 + 1 * (y 0).val = (y 0).val; omega

/-- The shift is read whole at every point. -/
theorem read_beta (c : Dev nD) (t : Fin cfg0.N) : (iblk m c 7 t : S512.Idx → EReal) = (m ((c : Thread nD τ).loc main_arg8)) := by
  obtain ⟨-, -, -, -, -, -, -, -, -, -, -, e7, -⟩ := idx_facts t
  rw [← V_main_arg8 m c]
  funext y
  show V m c main_arg8 (((cfg0.win 7).blk t).view.emb y) = V m c main_arg8 y
  refine congrArg (V m c main_arg8) (funext fun a => Fin.ext ?_)
  match a with
  | ⟨0, _⟩ => show win0_7.index t (0 : Fin 1) * 512 + 1 * (y 0).val = (y 0).val; omega

/-! ## What a point writes back, the cover, and the array after the run -/

/-- WHAT POINT `t` WRITES BACK is block `t` of the node update of the arguments. -/
theorem flushed_eq (c : Dev nD) (t : Fin cfg0.N) :
    (dats m 0 c).flushed 8 t = ((cfg0.win 8).blk t).view.read (Elt Ideal) (result m c) := by
  have hN : cfg0.N = 125 := N_0
  have ht : ∀ p : Fin 200, 200 * t.val + p.val < 25000 := fun p => by have := t.isLt; have := p.isLt; omega
  obtain ⟨-, -, -, -, -, -, -, -, -, -, -, -, e80, e81⟩ := idx_facts t
  rw [Value.flushed8]
  funext y
  obtain ⟨p, q, rfl⟩ : ∃ (p : Fin 200) (q : Fin 512), y = ix2 p q := ⟨y 0, y 1, eq_ix2 y⟩
  show out0_8 (iblk m c 0 t) (iblk m c 1 t) (iblk m c 2 t) (iblk m c 3 t) (iblk m c 4 t) (iblk m c 5 t) (iblk m c 6 t) (iblk m c 7 t) (ix2 p q)
    = result m c (((cfg0.win 8).blk t).view.emb (ix2 p q))
  refine (block_eq (iblk m c 0 t) (iblk m c 1 t) (iblk m c 2 t) (iblk m c 3 t) (iblk m c 4 t) (iblk m c 5 t) (iblk m c 6 t) (iblk m c 7 t)
    (agg (m ((c : Thread nD τ).loc main_arg0)) (m ((c : Thread nD τ).loc main_arg2))) (m ((c : Thread nD τ).loc main_arg1)) (200 * t.val) ht (read_agg m c t ht) (read_nodes m c t ht) p q).trans ?_
  rw [read_w1 m c t, read_b1 m c t, read_w2 m c t, read_b2 m c t, read_gamma m c t, read_beta m c t]
  unfold result
  refine congrArg (out _ _ _ _ _ _ _ _) (funext fun a => Fin.ext ?_)
  match a with
  | ⟨0, _⟩ => show 200 * t.val + p.val = win0_8.index t (0 : Fin 2) * 200 + 1 * p.val; omega
  | ⟨1, _⟩ => show q.val = win0_8.index t (1 : Fin 2) * 512 + 1 * q.val; omega

/-- An index of the array is in point `t`'s block iff each coordinate is in the block's range on its axis. -/
theorem mem_blk (t : Fin cfg0.N) (i : S25000x512.Idx) :
    i ∈ ((cfg0.win 8).blk t).view.set ↔ ∀ a : Fin 2, win0_8.index t a * S200x512.size a ≤ (i a).val ∧ (i a).val < win0_8.index t a * S200x512.size a + S200x512.size a := by
  show i ∈ ((View.whole main_v3).slice (win0_8.rect t)).set ↔ _
  rw [View.set_slice_whole, Rect.mem_set_unit]
  exact Iff.rfl

/-- Node `n` is written by point `n / 200`: the blocks cover the array. -/
theorem cover (i : S25000x512.Idx) :
    ∃ t : Fin cfg0.N, (cfg0.win 8).flush t = true ∧ i ∈ ((cfg0.win 8).blk t).view.set := by
  have hN : cfg0.N = 125 := N_0
  have hi0 : (i 0).val < 25000 := (i 0).isLt
  have hi1 : (i 1).val < 512 := (i 1).isLt
  have hlt : (i 0).val / 200 < cfg0.N := by rw [hN]; omega
  obtain ⟨-, -, -, -, -, -, -, -, -, -, -, -, e80, e81⟩ := idx_facts ⟨(i 0).val / 200, hlt⟩
  have e80' : win0_8.index ⟨(i 0).val / 200, hlt⟩ (0 : Fin 2) = (i 0).val / 200 := e80
  refine ⟨⟨(i 0).val / 200, hlt⟩, flush0_8 _, ?_⟩
  rw [mem_blk]
  intro a
  match a with
  | ⟨0, _⟩ =>
    show win0_8.index ⟨(i 0).val / 200, hlt⟩ (0 : Fin 2) * 200 ≤ (i 0).val ∧ (i 0).val < win0_8.index ⟨(i 0).val / 200, hlt⟩ (0 : Fin 2) * 200 + 200
    omega
  | ⟨1, _⟩ =>
    show win0_8.index ⟨(i 0).val / 200, hlt⟩ (1 : Fin 2) * 512 ≤ (i 1).val ∧ (i 1).val < win0_8.index ⟨(i 0).val / 200, hlt⟩ (1 : Fin 2) * 512 + 512
    omega

/-- THE ARRAY after the run is the node update of the arguments. -/
theorem final (c : Dev nD) : (dats m 0 c).arrAt 8 cfg0.N = result m c :=
  (dats m 0 c).arrAt_eq_of_cover 8 (result m c) (fun t _ => flushed_eq m c t) cover

/-- The frame run re-posted: the result array at the node update of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.NodeArray

end
-- ==== Proof.RefRow.lean ====
/-
  What the reference computes, read at node `n` and column `q`: its stages, one operation at a time, are the node update
  of row `n` of the aggregated edge features (the scatter-add, carried as one array and never opened) and row `n` of the
  node features. The whole-array concatenation at `(n, k)` reads the left or right array; each `dot_general` is the sum
  over its contracted axis; each row sum starts from the zero word, which is the extended real zero; the expansion of the
  logistic function into negate, exponential, add one and divide into one is the logistic function; the host's reciprocal
  square root and quotient are the same functions of extended reals as the kernel's.
-/
import proofs.«138643_j42777874268720_1_alg».proof.Proof.Gen.ReferenceIdeal.Read
import proofs.«138643_j42777874268720_1_alg».proof.Proof.NodeUpdate
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefRow

open Cert.ReferenceIdeal Cert.ReferenceIdeal.Gen Cert.ReferenceIdeal.Read Idealize.ShloMosaic Idealize.ShloMosaic.ValueIdx Cert.NodeUpdate

variable (x0 : FVec Ideal S400000x512 .f32) (x1 : FVec Ideal S25000x512 .f32) (x2 : IVec S400000 32)
  (x3 : FVec Ideal S1024x512 .f32) (x4 : FVec Ideal S512 .f32) (x5 : FVec Ideal S512x512 .f32)
  (x6 x7 x8 : FVec Ideal S512 .f32)

/-- The joined array at node `n`, joined column `k`: the aggregated features for `k < 512`, else the node's own at `k - 512`. -/
theorem joined_apply (n : Fin 25000) (k : Fin 1024) :
    val_main_v3 (F := Ideal) x0 x1 x2 (ix2 n k) = joined (rowOf (val_main_v2 (F := Ideal) x0 x2) n) (rowOf x1 n) k := by
  unfold val_main_v3 joined rowOf
  generalize val_main_v2 (F := Ideal) x0 x2 = A
  by_cases h : k.val < 512
  · rw [dif_pos h]
    exact concatenate_pair_apply_left (1 : Fin 2) A x1 _ (ix2 n k) rfl (ix2 n ⟨k.val, h⟩)
      (fun b => match b with | ⟨0, _⟩ => rfl | ⟨1, _⟩ => rfl)
  · rw [dif_neg h]
    have hk : k.val - 512 < 512 := by have := k.isLt; omega
    exact concatenate_pair_apply_right (1 : Fin 2) A x1 _ (ix2 n k) rfl rfl (ix2 n ⟨k.val - 512, hk⟩)
      (fun b hb => match b, hb with | ⟨0, _⟩, _ => rfl | ⟨1, _⟩, hb => absurd rfl hb)
      (by show (k.val - 512) + 512 = k.val; omega)

/-- The first linear layer at `(n, j)`. -/
theorem layerOne_apply (n : Fin 25000) (j : Fin 512) :
    val_main_v7 (F := Ideal) x0 x1 x2 x3 x4 (ix2 n j) = layerOne (rowOf (val_main_v2 (F := Ideal) x0 x2) n) (rowOf x1 n) x3 x4 j := by
  rw [val_main_v7_apply, val_main_v4_apply, val_main_v6_apply, val_main_v5_apply]
  unfold layerOne
  show (∑ k : Fin 1024, _) + _ = _
  have eb : idx_main_v5 (idx_main_v6 (ix2 n j)) = ix1 j := funext fun a => Fin.ext (by match a with | ⟨0, _⟩ => rfl)
  rw [eb]
  refine congrArg (· + x4 (ix1 j)) (Finset.sum_congr rfl fun k _ => ?_)
  have el : lidx_main_v4 (ix2 n j) k = ix2 n k := funext fun a => Fin.ext (by match a with | ⟨0, _⟩ => rfl | ⟨1, _⟩ => rfl)
  have er : ridx_main_v4 (ix2 n j) k = ix2 k j := funext fun a => Fin.ext (by match a with | ⟨0, _⟩ => rfl | ⟨1, _⟩ => rfl)
  rw [el, er, joined_apply]

/-- The activation at `(n, j)`: jax's expansion of the logistic function is the logistic function. -/
theorem act_apply (n : Fin 25000) (j : Fin 512) :
    val_main_v8 (F := Ideal) x0 x1 x2 x3 x4 (ix2 n j) = act (layerOne (rowOf (val_main_v2 (F := Ideal) x0 x2) n) (rowOf x1 n) x3 x4 j) := by
  rw [val_main_v8_apply, val_main_call0_v5_apply, val_main_call0_v4_apply, val_main_call0_cst_0_apply,
    val_main_call0_v3_apply, val_main_call0_v2_apply, val_main_call0_cst_apply, val_main_call0_v1_apply,
    val_main_call0_v0_apply, layerOne_apply]
  unfold act Ideal.logistic
  simp only [Ideal.mulf_def, Ideal.hostDivf_def, Ideal.addf_def, Ideal.ofBits_def, Ideal.hostUnary_exp_def, Ideal.hostNegf_def,
    Ideal.negf_def, Ideal.ofBits_one_f32]

/-- The second linear layer at `(n, d)`. -/
theorem layerTwo_apply (n : Fin 25000) (d : Fin 512) :
    val_main_v12 (F := Ideal) x0 x1 x2 x3 x4 x5 x6 (ix2 n d) = layerTwo (rowOf (val_main_v2 (F := Ideal) x0 x2) n) (rowOf x1 n) x3 x4 x5 x6 d := by
  rw [val_main_v12_apply, val_main_v9_apply, val_main_v11_apply, val_main_v10_apply]
  unfold layerTwo
  show (∑ k : Fin 512, _) + _ = _
  have eb : idx_main_v10 (idx_main_v11 (ix2 n d)) = ix1 d := funext fun a => Fin.ext (by match a with | ⟨0, _⟩ => rfl)
  rw [eb]
  refine congrArg (· + x6 (ix1 d)) (Finset.sum_congr rfl fun k _ => ?_)
  have el : lidx_main_v9 (ix2 n d) k = ix2 n k := funext fun a => Fin.ext (by match a with | ⟨0, _⟩ => rfl | ⟨1, _⟩ => rfl)
  have er : ridx_main_v9 (ix2 n d) k = ix2 k d := funext fun a => Fin.ext (by match a with | ⟨0, _⟩ => rfl | ⟨1, _⟩ => rfl)
  rw [el, er, act_apply]

/-- The row mean, kept as a column, at node `n`. -/
theorem mean_apply (n : Fin 25000) :
    val_main_v16 (F := Ideal) x0 x1 x2 x3 x4 x5 x6 (ix2 n (0 : Fin 1)) = mean (layerTwo (rowOf (val_main_v2 (F := Ideal) x0 x2) n) (rowOf x1 n) x3 x4 x5 x6) := by
  rw [val_main_v16_apply, val_main_v14_apply, val_main_v13_apply, val_main_v15_apply, val_main_cst_1_apply, val_main_cst_0_apply]
  unfold mean width
  show Ideal.div (Ideal.ofBits .f32 0x00000000#32 + ∑ k : Fin 512, _) (Ideal.ofBits .f32 0x44000000#32) = _
  rw [Ideal.ofBits_zero_f32, zero_add]
  refine congrArg (fun s => Ideal.div s (Ideal.ofBits .f32 0x44000000#32)) (Finset.sum_congr rfl fun k _ => ?_)
  have e : idx_main_v13 (idx_main_v14 (ix2 n (0 : Fin 1))) k = ix2 n k := funext fun a => Fin.ext (by match a with | ⟨0, _⟩ => rfl | ⟨1, _⟩ => rfl)
  rw [e, layerTwo_apply]

/-- The centred second layer at `(n, d)` (the reference forms it twice, from the same mean). -/
theorem centred_apply (n : Fin 25000) (d : Fin 512) :
    val_main_v18 (F := Ideal) x0 x1 x2 x3 x4 x5 x6 (ix2 n d) = centred (layerTwo (rowOf (val_main_v2 (F := Ideal) x0 x2) n) (rowOf x1 n) x3 x4 x5 x6) d := by
  rw [val_main_v18_apply, val_main_v17_apply, layerTwo_apply]
  have e : idx_main_v17 (ix2 n d) = ix2 n (0 : Fin 1) := funext fun a => Fin.ext (by match a with | ⟨0, _⟩ => rfl | ⟨1, _⟩ => rfl)
  rw [e, mean_apply]
  rfl

theorem centred_apply' (n : Fin 25000) (d : Fin 512) :
    val_main_v25 (F := Ideal) x0 x1 x2 x3 x4 x5 x6 (ix2 n d) = centred (layerTwo (rowOf (val_main_v2 (F := Ideal) x0 x2) n) (rowOf x1 n) x3 x4 x5 x6) d := by
  rw [val_main_v25_apply, val_main_v24_apply, layerTwo_apply]
  have e : idx_main_v24 (ix2 n d) = ix2 n (0 : Fin 1) := funext fun a => Fin.ext (by match a with | ⟨0, _⟩ => rfl | ⟨1, _⟩ => rfl)
  rw [e, mean_apply]
  rfl

/-- The reciprocal standard deviation, kept as a column, at node `n`. -/
theorem invStd_apply (n : Fin 25000) :
    val_main_v28 (F := Ideal) x0 x1 x2 x3 x4 x5 x6 (ix2 n (0 : Fin 1)) = invStd (layerTwo (rowOf (val_main_v2 (F := Ideal) x0 x2) n) (rowOf x1 n) x3 x4 x5 x6) := by
  rw [val_main_v28_apply, val_main_v27_apply, val_main_v23_apply, val_main_v21_apply, val_main_v20_apply, val_main_v22_apply,
    val_main_cst_3_apply, val_main_cst_2_apply, val_main_v26_apply, val_main_cst_4_apply]
  unfold invStd width eps
  show Ideal.rsqrt (Ideal.div (Ideal.ofBits .f32 0x00000000#32 + ∑ k : Fin 512, _) (Ideal.ofBits .f32 0x44000000#32) + Ideal.ofBits .f32 0x3727C5AC#32) = _
  rw [Ideal.ofBits_zero_f32, zero_add]
  refine congrArg (fun s => Ideal.rsqrt (Ideal.div s (Ideal.ofBits .f32 0x44000000#32) + Ideal.ofBits .f32 0x3727C5AC#32)) (Finset.sum_congr rfl fun k _ => ?_)
  have e : idx_main_v20 (idx_main_v21 (ix2 n (0 : Fin 1))) k = ix2 n k := funext fun a => Fin.ext (by match a with | ⟨0, _⟩ => rfl | ⟨1, _⟩ => rfl)
  rw [e, val_main_v19_apply, centred_apply]
  rfl

/-- THE REFERENCE'S RESULT is the node update of the aggregated features and the node features, as one array. -/
theorem result_eq :
    val_main_v37 (F := Ideal) x0 x1 x2 x3 x4 x5 x6 x7 x8 = out (val_main_v2 (F := Ideal) x0 x2) x1 x3 x4 x5 x6 x7 x8 := by
  funext i
  obtain ⟨n, d, rfl⟩ : ∃ (n : Fin 25000) (d : Fin 512), i = ix2 n d := ⟨i 0, i 1, eq_ix2 i⟩
  rw [out_ix2, val_main_v37_apply, val_main_v36_apply, val_main_v33_apply, val_main_v30_apply, val_main_v29_apply,
    val_main_v32_apply, val_main_v31_apply, val_main_v35_apply, val_main_v34_apply, centred_apply']
  have e29 : idx_main_v29 (ix2 n d) = ix2 n (0 : Fin 1) := funext fun a => Fin.ext (by match a with | ⟨0, _⟩ => rfl | ⟨1, _⟩ => rfl)
  have e31 : idx_main_v31 (idx_main_v32 (ix2 n d)) = ix1 d := funext fun a => Fin.ext (by match a with | ⟨0, _⟩ => rfl)
  have e34 : idx_main_v34 (idx_main_v35 (ix2 n d)) = ix1 d := funext fun a => Fin.ext (by match a with | ⟨0, _⟩ => rfl)
  rw [e29, e31, e34, invStd_apply]
  rfl

end Cert.ReferenceIdeal.RefRow

end
-- ==== Proof.lean ====
/-
  The certificate of one message-passing node update: edge features are summed into their destination nodes, joined with
  the node features, sent through a two-layer perceptron with the activation `u · logistic u`, layer-normalised, and
  added back to the node features.

  Both programs sum the edge features on the host by the same scatter-add, which is carried as one array and never opened.
  The kernel then works on blocks of 200 nodes, the reference on all 25000 at once; read at a node and a column, both are
  the same expression of that node's two feature rows (Proof/NodeUpdate.lean): the matrix products are the same finite sums,
  the row means and variances the same sums divided by the same word, the logistic function and the reciprocal square root
  the same functions of extended reals, and the change of float format before the kernel's products is the identity. No
  law of arithmetic beyond that is used, so the precondition is never opened.

  Proof/BlockRow.lean reads the kernel's body at a row of a block, Proof/NodeArray.lean lays the 125 blocks out over the
  array, Proof/RefRow.lean reads the reference's stages at a node, and the claims are assembled here.
-/
import proofs.«138643_j42777874268720_1_alg».proof.Defs
import proofs.«138643_j42777874268720_1_alg».proof.Proof.Gen.Kernel
import proofs.«138643_j42777874268720_1_alg».proof.Proof.Gen.Kernel.Skeleton
import proofs.«138643_j42777874268720_1_alg».proof.Proof.Gen.Kernel.Launch
import proofs.«138643_j42777874268720_1_alg».proof.Proof.Gen.Kernel.Points
import proofs.«138643_j42777874268720_1_alg».proof.Proof.Gen.Kernel.Frame
import proofs.«138643_j42777874268720_1_alg».proof.Proof.Gen.KernelIdeal
import proofs.«138643_j42777874268720_1_alg».proof.Proof.Gen.KernelIdeal.Skeleton
import proofs.«138643_j42777874268720_1_alg».proof.Proof.Gen.KernelIdeal.Launch
import proofs.«138643_j42777874268720_1_alg».proof.Proof.Gen.KernelIdeal.Points
import proofs.«138643_j42777874268720_1_alg».proof.Proof.Gen.KernelIdeal.Frame
import proofs.«138643_j42777874268720_1_alg».proof.Proof.Gen.ReferenceIdeal
import proofs.«138643_j42777874268720_1_alg».proof.Proof.Gen.Pre_finite_inputs
import proofs.«138643_j42777874268720_1_alg».proof.Proof.Gen.KernelIdeal.Value
import proofs.«138643_j42777874268720_1_alg».proof.Proof.Gen.ReferenceIdeal.Run
import proofs.«138643_j42777874268720_1_alg».proof.Proof.Gen.ReferenceIdeal.Read
import proofs.«138643_j42777874268720_1_alg».proof.Proof.NodeArray
import proofs.«138643_j42777874268720_1_alg».proof.Proof.RefRow
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The two programs sum the edge features into their destination nodes by the same host operations. -/
theorem agg_eq (x0 : FVec Ideal Cert.KernelIdeal.S400000x512 .f32) (x2 : IVec Cert.KernelIdeal.S400000 32) :
    Cert.ReferenceIdeal.Read.val_main_v2 (F := Ideal) x0 x2 = Cert.KernelIdeal.NodeArray.agg x0 x2 := rfl

/-- From memories that agree on the arguments the two idealized programs end with the edge features unchanged and with
    the same new node features: the node update of the arguments, index by index. -/
theorem algebraic : Cert.algebraic_KernelIdeal_ReferenceIdeal := by
  intro m ρ m' ρ' _ hagree
  refine ⟨fun c => (m ((c.tc : Thread Cert.KernelIdeal.nD Cert.KernelIdeal.τ).loc Cert.KernelIdeal.main_arg0)), fun c => Cert.KernelIdeal.NodeArray.result m c, ?_, ?_⟩
  · exact (θ_run Cert.KernelIdeal.defs _ _).mono (fun _ h c => ⟨(h c).2.1, (h c).1, (h c).2⟩)
      (Cert.KernelIdeal.NodeArray.run m ρ)
  · refine (θ_run Cert.ReferenceIdeal.defs _ _).mono (fun _ h c => ⟨(h c).1.trans (hagree c).1, (h c).2.1.trans ?_, (h c).2.2⟩)
      (Cert.ReferenceIdeal.Value.run (F := Ideal) m' ρ')
    rw [Cert.ReferenceIdeal.Read.val_main_v37_eq, Cert.ReferenceIdeal.RefRow.result_eq, agg_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
